-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8 : Shape := ⟨1, ![8]⟩
abbrev S8x2048x8192 : Shape := ⟨3, ![8, 2048, 8192]⟩
abbrev S8x8192 : Shape := ⟨2, ![8, 8192]⟩
abbrev S8x8192x2048 : Shape := ⟨3, ![8, 8192, 2048]⟩
abbrev S8x2048 : Shape := ⟨2, ![8, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg5 : FVec F S8x2048 .f32) (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  let main_v19 : FVec F S8x2048 .f32 := Host.absf main_arg5
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S16384x2048 .f32) (main_arg1 : IVec S8 32) (main_arg2 : FVec F S8x2048x8192 .f32) (main_arg3 : FVec F S8x8192 .f32) (main_arg4 : FVec F S8x8192x2048 .f32) (main_arg5 : FVec F S8x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x8192 .f32 := Host.absf main_arg2
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x8192 .f32 := Host.absf main_arg3
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x8192x2048 .f32 := Host.absf main_arg4
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_arg5 main_v13 main_v16
-- ==== Kernel.lean ====
abbrev S16384x2048 : Shape := ⟨2, ![16384, 2048]⟩
abbrev S8 : Shape := ⟨1, ![8]⟩
abbrev S8x2048x8192 : Shape := ⟨3, ![8, 2048, 8192]⟩
abbrev S8x8192 : Shape := ⟨2, ![8, 8192]⟩
abbrev S8x8192x2048 : Shape := ⟨3, ![8, 8192, 2048]⟩
abbrev S8x2048 : Shape := ⟨2, ![8, 2048]⟩
abbrev S8x2048x2048 : Shape := ⟨3, ![8, 2048, 2048]⟩
abbrev S1x512x2048 : Shape := ⟨3, ![1, 512, 2048]⟩
abbrev S1x2048x1024 : Shape := ⟨3, ![1, 2048, 1024]⟩
abbrev S8x1024 : Shape := ⟨2, ![8, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1x1024 : Shape := ⟨2, ![1, 1024]⟩
abbrev S1024 : Shape := ⟨1, ![1024]⟩
abbrev S1024x2048 : Shape := ⟨2, ![1024, 2048]⟩
abbrev S1x2048 : Shape := ⟨2, ![1, 2048]⟩
abbrev S2048 : Shape := ⟨1, ![2048]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x8192, .f32⟩
  | .hbm, ⟨3, _⟩ => ⟨S8x8192, .f32⟩
  | .hbm, ⟨4, _⟩ => ⟨S8x8192x2048, .f32⟩
  | .hbm, ⟨5, _⟩ => ⟨S8x2048, .f32⟩
  | .hbm, ⟨6, _⟩ => ⟨S8x2048x2048, .f32⟩
  | .hbm, ⟨7, _⟩ => ⟨S8x2048x2048, .bf16⟩
  | .hbm, ⟨8, _⟩ => ⟨S8x2048x8192, .bf16⟩
  | .hbm, ⟨9, _⟩ => ⟨S8x8192x2048, .bf16⟩
  | .hbm, ⟨10, _⟩ => ⟨S8x2048x2048, .f32⟩
  | .hbm, ⟨11, _⟩ => ⟨S16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S8x1024, .f32⟩
  | .local _ .vmem, ⟨5, _⟩ => ⟨S8x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S8x2048, .f32⟩
  | .local _ .vmem, ⟨9, _⟩ => ⟨S1x512x2048, .f32⟩
  | .local _ .vmem, ⟨10, _⟩ => ⟨S1x512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def k0_off1 (i : grid0.Coords) : Fin 2 → Nat :=
  let arg0 : BitVec 32 := BitVec.ofNat 32 (i 0).val
  let v8 : Index := Scalar.indexCast arg0
  let c0_6 : Index := 0#32
  ![v8.toNat, 0]
def k0_cond2 (i : grid0.Coords) : BitVec 1 :=
  let arg2 : BitVec 32 := BitVec.ofNat 32 (i 2).val
  let c7_i32 : BitVec 32 := 7#32
  let v36 : BitVec 1 := Scalar.cmpi .eq arg2 c7_i32
  let v37 : BitVec 32 := Scalar.extui v36
  let c0_i32_19 : BitVec 32 := 0#32
  let v38 : BitVec 1 := Scalar.cmpi .ne v37 c0_i32_19
  v38

def k0_off2 (i : grid0.Coords) : Fin 2 → Nat :=
  let arg0 : BitVec 32 := BitVec.ofNat 32 (i 0).val
  let v40 : Index := Scalar.indexCast arg0
  let c0_22 : Index := 0#32
  ![v40.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S16384x2048_S8x2048x2048 : S16384x2048.ShapeCasts S8x2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  shapeCasts_S512x2048_S1x512x2048 : S512x2048.ShapeCasts S1x512x2048
  shapeCasts_S8x2048x2048_S16384x2048 : S8x2048x2048.ShapeCasts S16384x2048
  dot_S512x2048_S2048x1024_S512x1024_1_0_0_1_n_n_wf : DotDims.WF S512x2048 S2048x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  k0_off1_inb : ∀ i : grid0.Coords, ∀ a, (k0_off1 i) a + S1x1024.size a ≤ S8x1024.size a
  k0_off2_inb : ∀ i : grid0.Coords, ∀ (k0_h2 : k0_cond2 i = 1#1), ∀ a, (k0_off2 i) a + S1x2048.size a ≤ S8x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x8192.size a
  hwx0_1 : ∀ i : grid0.Coords, EltTy.bits .bf16 = 32 ∨ (Rect.block (s := S8x2048x8192) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S8x8192.size a
  hwx0_2 : ∀ i : grid0.Coords, EltTy.bits .f32 = 32 ∨ (Rect.block (s := S8x8192) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x8192x2048.size a
  hwx0_3 : ∀ i : grid0.Coords, EltTy.bits .bf16 = 32 ∨ (Rect.block (s := S8x8192x2048) S1x1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x2048.size a ≤ S8x2048.size a
  hwx0_4 : ∀ i : grid0.Coords, EltTy.bits .f32 = 32 ∨ (Rect.block (s := S8x2048) S8x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8 : Shape := ⟨1, ![8]⟩
abbrev S8x2048x8192 : Shape := ⟨3, ![8, 2048, 8192]⟩
abbrev S8x8192 : Shape := ⟨2, ![8, 8192]⟩
abbrev S8x8192x2048 : Shape := ⟨3, ![8, 8192, 2048]⟩
abbrev S8x2048 : Shape := ⟨2, ![8, 2048]⟩
abbrev S8x2048x2048 : Shape := ⟨3, ![8, 2048, 2048]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x8192, .f32⟩
  | .hbm, ⟨3, _⟩ => ⟨S8x8192, .f32⟩
  | .hbm, ⟨4, _⟩ => ⟨S8x8192x2048, .f32⟩
  | .hbm, ⟨5, _⟩ => ⟨S8x2048, .f32⟩
  | .hbm, ⟨6, _⟩ => ⟨S8x2048x2048, .f32⟩
  | .hbm, ⟨7, _⟩ => ⟨S8x2048x8192, .f32⟩
  | .hbm, ⟨8, _⟩ => ⟨S8x1x8192, .f32⟩
  | .hbm, ⟨9, _⟩ => ⟨S8x2048x8192, .f32⟩
  | .hbm, ⟨10, _⟩ => ⟨S8x2048x8192, .f32⟩
  | .hbm, ⟨11, _⟩ => ⟨S8x2048x8192, .f32⟩
  | .hbm, ⟨12, _⟩ => ⟨S8x2048x8192, .f32⟩
  | .hbm, ⟨13, _⟩ => ⟨S_, .f32⟩
  | .hbm, ⟨14, _⟩ => ⟨S8x2048x8192, .f32⟩
  | .hbm, ⟨15, _⟩ => ⟨S8x2048x8192, .f32⟩
  | .hbm, ⟨16, _⟩ => ⟨S8x2048x8192, .f32⟩
  | .hbm, ⟨17, _⟩ => ⟨S_, .f32⟩
  | .hbm, ⟨18, _⟩ => ⟨S8x2048x8192, .f32⟩
  | .hbm, ⟨19, _⟩ => ⟨S8x2048x8192, .f32⟩
  | .hbm, ⟨20, _⟩ => ⟨S8x2048x8192, .f32⟩
  | .hbm, ⟨21, _⟩ => ⟨S_, .f32⟩
  | .hbm, ⟨22, _⟩ => ⟨S8x2048x8192, .f32⟩
  | .hbm, ⟨23, _⟩ => ⟨S8x2048x8192, .f32⟩
  | .hbm, ⟨24, _⟩ => ⟨S_, .f32⟩
  | .hbm, ⟨25, _⟩ => ⟨S8x2048x8192, .f32⟩
  | .hbm, ⟨26, _⟩ => ⟨S8x2048x8192, .f32⟩
  | .hbm, ⟨27, _⟩ => ⟨S8x2048x8192, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S8x8192_S8x1x8192_0_2 : S8x8192.BroadcastsInDim S8x1x8192 (![0, 2] : Fin 2 → Fin S8x1x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  shapeCasts_S8x2048x2048_S16384x2048 : S8x2048x2048.ShapeCasts S16384x2048
  dot_S8x2048x2048_S8x2048x8192_S8x2048x8192_2_1_1_2_0_0_wf : DotDims.WF S8x2048x2048 S8x2048x8192 S8x2048x8192 [2] [1] [1] [2] [0] [0]
  dot_S8x2048x8192_S8x8192x2048_S8x2048x2048_2_1_1_2_0_0_wf : DotDims.WF S8x2048x8192 S8x8192x2048 S8x2048x2048 [2] [1] [1] [2] [0] [0]

variable [Facts₀]

def dot_S8x2048x2048_S8x2048x8192_S8x2048x8192_2_1_1_2_0_0 : DotDims S8x2048x2048 S8x2048x8192 S8x2048x8192 where
  lhsContracting := [2]
  rhsContracting := [1]
  lhsNonContracting := [1]
  rhsNonContracting := [2]
  lhsBatch := [0]
  rhsBatch := [0]
  wf := dot_S8x2048x2048_S8x2048x8192_S8x2048x8192_2_1_1_2_0_0_wf
def dot_S8x2048x8192_S8x8192x2048_S8x2048x2048_2_1_1_2_0_0 : DotDims S8x2048x8192 S8x8192x2048 S8x2048x2048 where
  lhsContracting := [2]
  rhsContracting := [1]
  lhsNonContracting := [1]
  rhsNonContracting := [2]
  lhsBatch := [0]
  rhsBatch := [0]
  wf := dot_S8x2048x8192_S8x8192x2048_S8x2048x2048_2_1_1_2_0_0_wf

class Facts : Prop extends Facts₀ where

variable [Facts]
-- ==== Proof.Spec.lean ====
/-
  The expert feed-forward layer as one function of its five arrays.

  Eight experts each own 2048 of the 16384 tokens. With x[e, r, ·] the r-th token of expert e (2048 features),
  w1[e] a 2048 × 8192 matrix, b1[e] an 8192-vector, w2[e] an 8192 × 2048 matrix and b2[e] a 2048-vector, the layer is

      out[e, r, j] = (∑ f < 8192, gelu ((∑ h < 2048, x[e, r, h] · w1[e, h, f]) + b1[e, f]) · w2[e, f, j]) + b2[e, j],

  gelu being the tanh form h · (½ · (1 + tanh (c · (h + a · (h · (h · h)))))) with ½, 1, c and a the four binary32
  literals both programs spell (the same words on both sides, so their values are never needed).

  A sum over the 8192 hidden units taken 1024 at a time, one slab after the other, is the same sum: over the extended
  reals addition is commutative and associative, and nothing else is used (no cancellation, no distributivity, so no
  finiteness). "partialSum p" is the sum of the first p slabs; it grows by one slab at a time and the eighth is the whole
  sum.
-/
import Idealize.ShloMosaic.PureOps.Ideal.Laws
import Idealize.ShloMosaic.Lib.ValueIdx

noncomputable section

open scoped BigOperators

namespace Cert.ExpertFFN

open Idealize.ShloMosaic Idealize.ShloMosaic.ValueIdx

/-! ## Slabs of a sum -/

/-- A sum over P·N consecutive naturals is the sum of its P consecutive slabs of N. -/
theorem sum_slabs {M : Type*} [AddCommMonoid M] (N : ℕ) (T : ℕ → M) :
    ∀ P : ℕ, ∑ q ∈ Finset.range P, ∑ k ∈ Finset.range N, T (q * N + k) = ∑ f ∈ Finset.range (P * N), T f
  | 0 => by simp
  | P + 1 => by rw [Finset.sum_range_succ, sum_slabs N T P, Nat.succ_mul, Finset.sum_range_add]

/-! ## The layer -/

/-- The tanh form of GELU over the extended reals, the four constants the binary32 words of the programs. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

variable (X : (⟨3, ![8, 2048, 2048]⟩ : Shape).Idx → EReal) (W1 : (⟨3, ![8, 2048, 8192]⟩ : Shape).Idx → EReal)
  (B1 : (⟨2, ![8, 8192]⟩ : Shape).Idx → EReal) (W2 : (⟨3, ![8, 8192, 2048]⟩ : Shape).Idx → EReal)
  (B2 : (⟨2, ![8, 2048]⟩ : Shape).Idx → EReal)

/-- Hidden unit f of token (e, r) before the activation. -/
def pre (e : Fin 8) (r : Fin 2048) (f : Fin 8192) : EReal :=
  (∑ h : Fin 2048, X (ix3 e r h) * W1 (ix3 e h f)) + B1 (ix2 e f)

/-- What hidden unit f contributes to output feature j of token (e, r). -/
def term (e : Fin 8) (r : Fin 2048) (j : Fin 2048) (f : Fin 8192) : EReal :=
  gelu (pre X W1 B1 e r f) * W2 (ix3 e f j)

/-- The layer at token (e, r), feature j. -/
def outAt (e : Fin 8) (r : Fin 2048) (j : Fin 2048) : EReal :=
  (∑ f : Fin 8192, term X W1 B1 W2 e r j f) + B2 (ix2 e j)

/-- The layer as an array of shape [8, 2048, 2048]. -/
def out : (⟨3, ![8, 2048, 2048]⟩ : Shape).Idx → EReal := fun i => outAt X W1 B1 W2 B2 (i 0) (i 1) (i 2)

theorem out_apply (e : Fin 8) (r : Fin 2048) (j : Fin 2048) :
    out X W1 B1 W2 B2 (ix3 e r j) = outAt X W1 B1 W2 B2 e r j := rfl

/-! ## The hidden units 1024 at a time -/

/-- The contribution of hidden unit f, for any natural f (zero past the last unit). -/
def termN (e : Fin 8) (r : Fin 2048) (j : Fin 2048) (f : ℕ) : EReal :=
  if h : f < 8192 then term X W1 B1 W2 e r j ⟨f, h⟩ else 0

theorem termN_of_lt (e : Fin 8) (r : Fin 2048) (j : Fin 2048) (f : ℕ) (h : f < 8192) :
    termN X W1 B1 W2 e r j f = term X W1 B1 W2 e r j ⟨f, h⟩ := dif_pos h

/-- The contributions of the first p slabs of 1024 hidden units. -/
def partialSum (e : Fin 8) (r : Fin 2048) (j : Fin 2048) (p : ℕ) : EReal :=
  ∑ q ∈ Finset.range p, ∑ k : Fin 1024, termN X W1 B1 W2 e r j (q * 1024 + k.val)

theorem partialSum_zero (e : Fin 8) (r : Fin 2048) (j : Fin 2048) : partialSum X W1 B1 W2 e r j 0 = 0 :=
  Finset.sum_range_zero _

theorem partialSum_succ (e : Fin 8) (r : Fin 2048) (j : Fin 2048) (p : ℕ) :
    partialSum X W1 B1 W2 e r j (p + 1)
      = partialSum X W1 B1 W2 e r j p + ∑ k : Fin 1024, termN X W1 B1 W2 e r j (p * 1024 + k.val) :=
  Finset.sum_range_succ _ p

/-- All eight slabs are all 8192 hidden units. -/
theorem partialSum_eight (e : Fin 8) (r : Fin 2048) (j : Fin 2048) :
    partialSum X W1 B1 W2 e r j 8 = ∑ f : Fin 8192, term X W1 B1 W2 e r j f := by
  unfold partialSum
  have h1 : ∀ q : ℕ, ∑ k : Fin 1024, termN X W1 B1 W2 e r j (q * 1024 + k.val)
      = ∑ k ∈ Finset.range 1024, termN X W1 B1 W2 e r j (q * 1024 + k) :=
    fun q => (Finset.sum_range fun k => termN X W1 B1 W2 e r j (q * 1024 + k)).symm
  simp only [h1]
  rw [sum_slabs 1024 (termN X W1 B1 W2 e r j) 8, Finset.sum_range]
  exact Finset.sum_congr rfl fun f _ => termN_of_lt X W1 B1 W2 e r j f.val f.isLt

end Cert.ExpertFFN
-- ==== Proof.Reference.lean ====
/-
  The reference computes the expert feed-forward layer.

  Read one operation at a time at the ideal values, the reference's tensor before its last reshape is, at expert e,
  token r and feature j, the sum over the 8192 hidden units f of

      gelu ((∑ h, x[e, r, h] · w1[e, h, f]) + b1[e, f]) · w2[e, f, j]

  plus b2[e, j], with x the argument array reshaped to [8, 2048, 2048]: both einsums are batched over e and contract
  one axis, both biases are broadcast along the token axis, and the activation is spelt h · (½ · (1 + tanh (c · (h + a ·
  ((h · h) · h))))) — the cube grouped the other way round from the layer's definition, which commutativity of the
  product settles.
-/
import proofs.«175994_j75711683494339_1_alg».proof.Defs
import proofs.«175994_j75711683494339_1_alg».proof.Proof.Gen.ReferenceIdeal.Run
import proofs.«175994_j75711683494339_1_alg».proof.Proof.Gen.ReferenceIdeal.Read
import proofs.«175994_j75711683494339_1_alg».proof.Proof.Spec

noncomputable section

open scoped BigOperators

namespace Cert.ReferenceIdeal.Layer

open Cert.ReferenceIdeal Cert.ReferenceIdeal.Gen Cert.ReferenceIdeal.Read
open Idealize.ShloMosaic Idealize.ShloMosaic.ValueIdx Cert.ExpertFFN

variable (x0 : (⟨S16384x2048, .f32⟩ : BufTy).Contents (Elt Ideal)) (x2 : (⟨S8x2048x8192, .f32⟩ : BufTy).Contents (Elt Ideal))
  (x3 : (⟨S8x8192, .f32⟩ : BufTy).Contents (Elt Ideal)) (x4 : (⟨S8x8192x2048, .f32⟩ : BufTy).Contents (Elt Ideal))
  (x5 : (⟨S8x2048, .f32⟩ : BufTy).Contents (Elt Ideal))

/-! ## Where each operand is read -/

theorem lidx1 (e : Fin 8) (r : Fin 2048) (f : Fin 8192) (k : Fin 2048) : lidx_main_v1 (ix3 e r f) k = ix3 e r k :=
  funext fun a => match a with | ⟨0, _⟩ => rfl | ⟨1, _⟩ => rfl | ⟨2, _⟩ => rfl

theorem ridx1 (e : Fin 8) (r : Fin 2048) (f : Fin 8192) (k : Fin 2048) : ridx_main_v1 (ix3 e r f) k = ix3 e k f :=
  funext fun a => match a with | ⟨0, _⟩ => rfl | ⟨1, _⟩ => rfl | ⟨2, _⟩ => rfl

theorem bias1 (e : Fin 8) (r : Fin 2048) (f : Fin 8192) : idx_main_v2 (idx_main_v3 (ix3 e r f)) = ix2 e f :=
  funext fun a => match a with | ⟨0, _⟩ => rfl | ⟨1, _⟩ => rfl

theorem lidx18 (e : Fin 8) (r : Fin 2048) (j : Fin 2048) (k : Fin 8192) : lidx_main_v18 (ix3 e r j) k = ix3 e r k :=
  funext fun a => match a with | ⟨0, _⟩ => rfl | ⟨1, _⟩ => rfl | ⟨2, _⟩ => rfl

theorem ridx18 (e : Fin 8) (r : Fin 2048) (j : Fin 2048) (k : Fin 8192) : ridx_main_v18 (ix3 e r j) k = ix3 e k j :=
  funext fun a => match a with | ⟨0, _⟩ => rfl | ⟨1, _⟩ => rfl | ⟨2, _⟩ => rfl

theorem bias2 (e : Fin 8) (r : Fin 2048) (j : Fin 2048) : idx_main_v19 (idx_main_v20 (ix3 e r j)) = ix2 e j :=
  funext fun a => match a with | ⟨0, _⟩ => rfl | ⟨1, _⟩ => rfl

/-! ## The three stages -/

/-- The first einsum plus its bias is the hidden unit before the activation. -/
theorem hidden_eq (e : Fin 8) (r : Fin 2048) (f : Fin 8192) :
    val_main_v4 (F := Ideal) x0 x2 x3 (ix3 e r f) = pre (val_main_v0 (F := Ideal) x0) x2 x3 e r f := by
  rw [val_main_v4_apply, val_main_v1_apply, val_main_v3_apply, val_main_v2_apply, bias1]
  simp only [lidx1, ridx1]
  rfl

/-- The reference's activation is the layer's GELU of the hidden unit. -/
theorem act_eq (i : S8x2048x8192.Idx) :
    val_main_v17 (F := Ideal) x0 x2 x3 i = gelu (val_main_v4 (F := Ideal) x0 x2 x3 i) := by
  rw [val_main_v17_apply, val_main_v16_apply, val_main_v15_apply, val_main_v14_apply, val_main_v13_apply,
    val_main_v12_apply, val_main_v11_apply, val_main_v10_apply, val_main_v9_apply, val_main_v8_apply,
    val_main_v7_apply, val_main_v6_apply, val_main_v5_apply]
  show val_main_v4 x0 x2 x3 i * (Ideal.ofBits .f32 0x3F000000#32 * (Ideal.ofBits .f32 0x3F800000#32
    + Ideal.tanh (Ideal.ofBits .f32 0x3F4C422A#32 * (val_main_v4 x0 x2 x3 i + Ideal.ofBits .f32 0x3D372713#32
      * (val_main_v4 x0 x2 x3 i * val_main_v4 x0 x2 x3 i * val_main_v4 x0 x2 x3 i))))) = _
  rw [mul_comm (val_main_v4 x0 x2 x3 i * val_main_v4 x0 x2 x3 i) (val_main_v4 x0 x2 x3 i)]
  rfl

/-- The second einsum plus its bias is the layer. -/
theorem out_eq (e : Fin 8) (r : Fin 2048) (j : Fin 2048) :
    val_main_v21 (F := Ideal) x0 x2 x3 x4 x5 (ix3 e r j) = outAt (val_main_v0 (F := Ideal) x0) x2 x3 x4 x5 e r j := by
  rw [val_main_v21_apply, val_main_v18_apply, val_main_v20_apply, val_main_v19_apply, bias2]
  simp only [lidx18, ridx18, act_eq, hidden_eq]
  rfl

/-- The reference's tensor before the last reshape is the layer of the reshaped tokens. -/
theorem layer_eq : val_main_v21 (F := Ideal) x0 x2 x3 x4 x5 = out (val_main_v0 (F := Ideal) x0) x2 x3 x4 x5 := by
  funext i
  rw [eq_ix3 i]
  exact out_eq x0 x2 x3 x4 x5 (i 0) (i 1) (i 2)

/-- So the reference's result is that layer reshaped to [16384, 2048]. -/
theorem result_eq : val_main_v22 (F := Ideal) x0 x2 x3 x4 x5
    = shapeCast S16384x2048 (out (val_main_v0 (F := Ideal) x0) x2 x3 x4 x5) shapeCasts_S8x2048x2048_S16384x2048 := by
  unfold val_main_v22
  rw [layer_eq]

end Cert.ReferenceIdeal.Layer
-- ==== Proof.Pieces.lean ====
/-
  What one grid point leaves in the accumulator and in the output block, as values.

  The grid runs over experts, token blocks and slabs of hidden units, the slabs innermost. At every point the body
  adds the slab's product to the accumulator; at a point with the first slab it first resets the accumulator to zero, and
  at a point with the last slab it then writes the accumulator plus the expert's second bias row to the output block.
  The two bias rows are read out of staged blocks that hold all eight experts' rows, at the row of the point's expert.

  So, writing step for "the accumulator plus this slab's product" and emit for "plus the second bias row":
  the first slab leaves step (zero); a middle slab leaves step (what the point before left); the last slab leaves
  step (what the point before left) in the accumulator and emit of that in the output block.
-/
import proofs.«175994_j75711683494339_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first bias's row for the point's expert, out of the staged block of all eight rows. -/
def biasRow1 (i : grid0.Coords) (x2 : Vec F S8x1024 .f32) : Vec F S1x1024 .f32 :=
  View.ld x2 (Rect.unit (s := S8x1024) (k0_off1 i) S1x1024.size (k0_off1_inb i))

/-- The second bias's row for the point's expert, where the body reads it (the last slab). -/
def biasRow2 (i : grid0.Coords) (hc1 : cond0_1 i) (x4 : Vec F S8x2048 .f32) : Vec F S1x2048 .f32 :=
  View.ld x4 (Rect.unit (s := S8x2048) (k0_off2 i) S1x2048.size (k0_off2_inb i hc1))

/-- The accumulator after the point's update, from its value acc when the update reads it. -/
def step (i : grid0.Coords) (x0 : Vec F S1x512x2048 .bf16) (x1 : Vec F S1x2048x1024 .bf16) (x2 : Vec F S8x1024 .f32)
    (x3 : Vec F S1x1024x2048 .bf16) (acc : Vec F S512x2048 .f32) : Vec F S512x2048 .f32 :=
  k0_pay1 (k0_pay4 x0 x1 (biasRow1 i x2) x3 acc)

/-- The output block the last slab writes, from the finished accumulator. -/
def emit (i : grid0.Coords) (hc1 : cond0_1 i) (x4 : Vec F S8x2048 .f32) (acc : Vec F S512x2048 .f32) : Vec F S1x512x2048 .f32 :=
  k0_pay2 acc (biasRow2 i hc1 x4)

/-- First slab: the accumulator is reset, then updated. -/
theorem acc_first (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S8x1024 .f32) (harg5 : arg5.IsWhole) (arg6 : Memref sig .tc .vmem S1x1024x2048 .bf16) (harg6 : arg6.IsWhole) (arg7 : Memref sig .tc .vmem S8x2048 .f32) (harg7 : arg7.IsWhole) (arg8 : Memref sig .tc .vmem S1x512x2048 .f32) (harg8 : arg8.IsWhole) (arg9 : Memref sig .tc .vmem S512x2048 .f32) (harg9 : arg9.IsWhole) (hc0 : cond0_0 i) (hc1 : ¬cond0_1 i) (x0 : Vec F S1x512x2048 .bf16) (x1 : Vec F S1x2048x1024 .bf16) (x2 : Vec F S8x1024 .f32) (x3 : Vec F S1x1024x2048 .bf16) (x4 : Vec F S8x2048 .f32) :
    sout0_A_0 c i arg3 harg3 arg4 harg4 arg5 harg5 arg6 harg6 arg7 harg7 arg8 harg8 arg9 harg9 hc0 hc1 x0 x1 x2 x3 x4 = step i x0 x1 x2 x3 (k0_pay3 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) zero2, View.readCov_unit_zero (S := S512x2048) _ zero2]
  simp only [View.readAt_eq_ld, harg3.read_unread, harg4.read_unread, harg5.read_unread, harg6.read_unread,
    View.ld_unit_zero (S := S1x512x2048) zero3, View.ld_unit_zero (S := S1x2048x1024) zero3,
    View.ld_unit_zero (S := S1x1024x2048) zero3]
  rfl

/-- Middle slab: the accumulator the point before left, updated. -/
theorem acc_middle (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S8x1024 .f32) (harg5 : arg5.IsWhole) (arg6 : Memref sig .tc .vmem S1x1024x2048 .bf16) (harg6 : arg6.IsWhole) (arg7 : Memref sig .tc .vmem S8x2048 .f32) (harg7 : arg7.IsWhole) (arg8 : Memref sig .tc .vmem S1x512x2048 .f32) (harg8 : arg8.IsWhole) (arg9 : Memref sig .tc .vmem S512x2048 .f32) (harg9 : arg9.IsWhole) (hc0 : ¬cond0_0 i) (hc1 : ¬cond0_1 i) (x0 : Vec F S1x512x2048 .bf16) (x1 : Vec F S1x2048x1024 .bf16) (x2 : Vec F S8x1024 .f32) (x3 : Vec F S1x1024x2048 .bf16) (x4 : Vec F S8x2048 .f32) (xs0 : Vec F S512x2048 .f32) :
    sout0_B_0 c i arg3 harg3 arg4 harg4 arg5 harg5 arg6 harg6 arg7 harg7 arg8 harg8 arg9 harg9 hc0 hc1 x0 x1 x2 x3 x4 xs0 = step i x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero (S := S512x2048) zero2]
  simp only [View.readAt_eq_ld, harg3.read_unread, harg4.read_unread, harg5.read_unread, harg6.read_unread, harg9.read_unread,
    View.ld_unit_zero (S := S1x512x2048) zero3, View.ld_unit_zero (S := S1x2048x1024) zero3,
    View.ld_unit_zero (S := S1x1024x2048) zero3, View.ld_unit_zero (S := S512x2048) zero2]
  rfl

/-- Last slab, the accumulator: as in the middle. -/
theorem acc_last (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S8x1024 .f32) (harg5 : arg5.IsWhole) (arg6 : Memref sig .tc .vmem S1x1024x2048 .bf16) (harg6 : arg6.IsWhole) (arg7 : Memref sig .tc .vmem S8x2048 .f32) (harg7 : arg7.IsWhole) (arg8 : Memref sig .tc .vmem S1x512x2048 .f32) (harg8 : arg8.IsWhole) (arg9 : Memref sig .tc .vmem S512x2048 .f32) (harg9 : arg9.IsWhole) (hc0 : ¬cond0_0 i) (hc1 : cond0_1 i) (x0 : Vec F S1x512x2048 .bf16) (x1 : Vec F S1x2048x1024 .bf16) (x2 : Vec F S8x1024 .f32) (x3 : Vec F S1x1024x2048 .bf16) (x4 : Vec F S8x2048 .f32) (xs0 : Vec F S512x2048 .f32) :
    sout0_C_0 c i arg3 harg3 arg4 harg4 arg5 harg5 arg6 harg6 arg7 harg7 arg8 harg8 arg9 harg9 hc0 hc1 x0 x1 x2 x3 x4 xs0 = step i x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S512x2048) zero2]
  simp only [View.readAt_eq_ld, harg3.read_unread, harg4.read_unread, harg5.read_unread, harg6.read_unread, harg9.read_unread,
    View.ld_unit_zero (S := S1x512x2048) zero3, View.ld_unit_zero (S := S1x2048x1024) zero3,
    View.ld_unit_zero (S := S1x1024x2048) zero3, View.ld_unit_zero (S := S512x2048) zero2]
  rfl

/-- Last slab, the output block: the finished accumulator plus the bias row. -/
theorem out_last (c : Dev nD) (i : grid0.Coords) (arg3 : Memref sig .tc .vmem S1x512x2048 .bf16) (harg3 : arg3.IsWhole) (arg4 : Memref sig .tc .vmem S1x2048x1024 .bf16) (harg4 : arg4.IsWhole) (arg5 : Memref sig .tc .vmem S8x1024 .f32) (harg5 : arg5.IsWhole) (arg6 : Memref sig .tc .vmem S1x1024x2048 .bf16) (harg6 : arg6.IsWhole) (arg7 : Memref sig .tc .vmem S8x2048 .f32) (harg7 : arg7.IsWhole) (arg8 : Memref sig .tc .vmem S1x512x2048 .f32) (harg8 : arg8.IsWhole) (arg9 : Memref sig .tc .vmem S512x2048 .f32) (harg9 : arg9.IsWhole) (hc0 : ¬cond0_0 i) (hc1 : cond0_1 i) (x0 : Vec F S1x512x2048 .bf16) (x1 : Vec F S1x2048x1024 .bf16) (x2 : Vec F S8x1024 .f32) (x3 : Vec F S1x1024x2048 .bf16) (x4 : Vec F S8x2048 .f32) (xs0 : Vec F S512x2048 .f32) :
    out0_C_5 c i arg3 harg3 arg4 harg4 arg5 harg5 arg6 harg6 arg7 harg7 arg8 harg8 arg9 harg9 hc0 hc1 x0 x1 x2 x3 x4 xs0 = emit i hc1 x4 (step i x0 x1 x2 x3 xs0) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1x512x2048) zero3, View.readCov_unit_zero (S := S512x2048) _ zero2]
  simp only [View.readAt_eq_ld, harg3.read_unread, harg4.read_unread, harg5.read_unread, harg6.read_unread, harg7.read_unread, harg9.read_unread,
    View.ld_unit_zero (S := S1x512x2048) zero3, View.ld_unit_zero (S := S1x2048x1024) zero3,
    View.ld_unit_zero (S := S1x1024x2048) zero3, View.ld_unit_zero (S := S512x2048) zero2]
  rfl

end Cert.KernelIdeal.Body
-- ==== Proof.Blocks.lean ====
/-
  Where each staged block sits in its array.

  The grid has 8 · 4 · 8 = 256 points; point number t stands for expert t / 32, token block (t / 8) mod 4 and slab
  t mod 8 of the hidden units (the slab runs fastest). At point t

    the token block        is rows    ((t / 8) mod 4) · 512 + r   of expert t / 32's tokens,
    the w1 slab            is columns (t mod 8) · 1024 + k        of expert t / 32's first matrix,
    the first-bias block   is columns (t mod 8) · 1024 + k        of all eight first-bias rows,
    the w2 slab            is rows    (t mod 8) · 1024 + k        of expert t / 32's second matrix,
    the second-bias block  is the whole second bias,

  and the bias rows the body picks out of the two bias blocks are those of expert t / 32. Each is an identity between
  two positions in an array, coordinate by coordinate: a block's coordinate is its index times its extent plus the
  coordinate inside it. The index maps are decided once over the 256 points.
-/
import proofs.«175994_j75711683494339_1_alg».proof.Proof.Pieces
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The grid point's three coordinates -/

theorem lt256 (t : Fin cfg0.N) : t.val < 256 := lt_of_lt_of_eq t.isLt (show cfg0.N = 256 from N_0)

/-- The expert of point t. -/
def expert (t : Fin cfg0.N) : Fin 8 := ⟨t.val / 32, by have := lt256 t; omega⟩

/-- Row r of point t's token block, as a row of the expert's 2048 tokens. -/
def tokRow (t : Fin cfg0.N) (r : Fin 512) : Fin 2048 := ⟨t.val / 8 % 4 * 512 + r.val, by have := r.isLt; omega⟩

/-- Unit k of point t's slab, as one of the 8192 hidden units. -/
def hidUnit (t : Fin cfg0.N) (k : Fin 1024) : Fin 8192 := ⟨t.val % 8 * 1024 + k.val, by have := k.isLt; omega⟩

/-- The index maps and the expert coordinate, over the whole grid. -/
theorem where_blocks : ∀ t : Fin cfg0.N,
    (win0_0.index t (0 : Fin 3) = t.val / 32 ∧ win0_0.index t (1 : Fin 3) = t.val / 8 % 4 ∧ win0_0.index t (2 : Fin 3) = 0)
    ∧ (win0_1.index t (0 : Fin 3) = t.val / 32 ∧ win0_1.index t (1 : Fin 3) = 0 ∧ win0_1.index t (2 : Fin 3) = t.val % 8)
    ∧ (win0_2.index t (0 : Fin 2) = 0 ∧ win0_2.index t (1 : Fin 2) = t.val % 8)
    ∧ (win0_3.index t (0 : Fin 3) = t.val / 32 ∧ win0_3.index t (1 : Fin 3) = t.val % 8 ∧ win0_3.index t (2 : Fin 3) = 0)
    ∧ (win0_4.index t (0 : Fin 2) = 0 ∧ win0_4.index t (1 : Fin 2) = 0)
    ∧ (win0_5.index t (0 : Fin 3) = t.val / 32 ∧ win0_5.index t (1 : Fin 3) = t.val / 8 % 4 ∧ win0_5.index t (2 : Fin 3) = 0)
    ∧ (grid0.coords t 0).val = t.val / 32 :=
  (by decide +kernel : ∀ t : Fin grid0.N, _)

/-! ## The arrays the region finds and the blocks at a point, at their literal types -/

abbrev tokens (c : Dev nD) : Vec F S8x2048x2048 .bf16 := V m c main_v1
abbrev weights1 (c : Dev nD) : Vec F S8x2048x8192 .bf16 := V m c main_v2
abbrev bias1 (c : Dev nD) : Vec F S8x8192 .f32 := V m c main_arg3
abbrev weights2 (c : Dev nD) : Vec F S8x8192x2048 .bf16 := V m c main_v3
abbrev bias2 (c : Dev nD) : Vec F S8x2048 .f32 := V m c main_arg5

abbrev tokBlk (c : Dev nD) (t : Fin cfg0.N) : Vec F S1x512x2048 .bf16 := iblk m c 0 t
abbrev w1Blk (c : Dev nD) (t : Fin cfg0.N) : Vec F S1x2048x1024 .bf16 := iblk m c 1 t
abbrev b1Blk (c : Dev nD) (t : Fin cfg0.N) : Vec F S8x1024 .f32 := iblk m c 2 t
abbrev w2Blk (c : Dev nD) (t : Fin cfg0.N) : Vec F S1x1024x2048 .bf16 := iblk m c 3 t
abbrev b2Blk (c : Dev nD) (t : Fin cfg0.N) : Vec F S8x2048 .f32 := iblk m c 4 t

/-! ## Each block read at an entry -/

theorem tokBlk_apply (c : Dev nD) (t : Fin cfg0.N) (u : Fin 1) (r : Fin 512) (h : Fin 2048) :
    tokBlk m c t (ix3 u r h) = tokens m c (ix3 (expert t) (tokRow t r) h) := by
  obtain ⟨⟨e0, e1, e2⟩, -⟩ := where_blocks t
  show V m c main_v1 (((cfg0.win 0).blk t).view.emb (ix3 u r h)) = V m c main_v1 _
  refine congrArg _ (funext fun a => Fin.ext ?_)
  have hu := u.isLt
  match a with
  | ⟨0, _⟩ => show win0_0.index t (0 : Fin 3) * 1 + 1 * u.val = t.val / 32; omega
  | ⟨1, _⟩ => show win0_0.index t (1 : Fin 3) * 512 + 1 * r.val = t.val / 8 % 4 * 512 + r.val; omega
  | ⟨2, _⟩ => show win0_0.index t (2 : Fin 3) * 2048 + 1 * h.val = h.val; omega

theorem w1Blk_apply (c : Dev nD) (t : Fin cfg0.N) (u : Fin 1) (h : Fin 2048) (k : Fin 1024) :
    w1Blk m c t (ix3 u h k) = weights1 m c (ix3 (expert t) h (hidUnit t k)) := by
  obtain ⟨-, ⟨e0, e1, e2⟩, -⟩ := where_blocks t
  show V m c main_v2 (((cfg0.win 1).blk t).view.emb (ix3 u h k)) = V m c main_v2 _
  refine congrArg _ (funext fun a => Fin.ext ?_)
  have hu := u.isLt
  match a with
  | ⟨0, _⟩ => show win0_1.index t (0 : Fin 3) * 1 + 1 * u.val = t.val / 32; omega
  | ⟨1, _⟩ => show win0_1.index t (1 : Fin 3) * 2048 + 1 * h.val = h.val; omega
  | ⟨2, _⟩ => show win0_1.index t (2 : Fin 3) * 1024 + 1 * k.val = t.val % 8 * 1024 + k.val; omega

theorem w2Blk_apply (c : Dev nD) (t : Fin cfg0.N) (u : Fin 1) (k : Fin 1024) (j : Fin 2048) :
    w2Blk m c t (ix3 u k j) = weights2 m c (ix3 (expert t) (hidUnit t k) j) := by
  obtain ⟨-, -, -, ⟨e0, e1, e2⟩, -⟩ := where_blocks t
  show V m c main_v3 (((cfg0.win 3).blk t).view.emb (ix3 u k j)) = V m c main_v3 _
  refine congrArg _ (funext fun a => Fin.ext ?_)
  have hu := u.isLt
  match a with
  | ⟨0, _⟩ => show win0_3.index t (0 : Fin 3) * 1 + 1 * u.val = t.val / 32; omega
  | ⟨1, _⟩ => show win0_3.index t (1 : Fin 3) * 1024 + 1 * k.val = t.val % 8 * 1024 + k.val; omega
  | ⟨2, _⟩ => show win0_3.index t (2 : Fin 3) * 2048 + 1 * j.val = j.val; omega

/-- The first-bias row the body picks at point t is the expert's, at the slab's units. -/
theorem biasRow1_apply (c : Dev nD) (t : Fin cfg0.N) (u : Fin 1) (k : Fin 1024) :
    biasRow1 (grid0.coords t) (b1Blk m c t) (ix2 u k) = bias1 m c (ix2 (expert t) (hidUnit t k)) := by
  obtain ⟨-, -, ⟨e0, e1⟩, -, -, -, ec⟩ := where_blocks t
  have ho0 : k0_off1 (grid0.coords t) 0 = (grid0.coords t 0).val := congrFun (k0_off1_eq (grid0.coords t)) 0
  have ho1 : k0_off1 (grid0.coords t) 1 = 0 := congrFun (k0_off1_eq (grid0.coords t)) 1
  show V m c main_arg3 (((cfg0.win 2).blk t).view.emb
    ((Rect.unit (s := S8x1024) (k0_off1 (grid0.coords t)) S1x1024.size (k0_off1_inb (grid0.coords t))).emb (ix2 u k))) = V m c main_arg3 _
  refine congrArg _ (funext fun a => Fin.ext ?_)
  have hu := u.isLt
  match a with
  | ⟨0, _⟩ => show win0_2.index t (0 : Fin 2) * 8 + 1 * (k0_off1 (grid0.coords t) 0 + 1 * u.val) = t.val / 32; omega
  | ⟨1, _⟩ => show win0_2.index t (1 : Fin 2) * 1024 + 1 * (k0_off1 (grid0.coords t) 1 + 1 * k.val) = t.val % 8 * 1024 + k.val; omega

/-- The second-bias row the body picks at a last-slab point t is the expert's. -/
theorem biasRow2_apply (c : Dev nD) (t : Fin cfg0.N) (hc1 : cond0_1 (grid0.coords t)) (u : Fin 1) (j : Fin 2048) :
    biasRow2 (grid0.coords t) hc1 (b2Blk m c t) (ix2 u j) = bias2 m c (ix2 (expert t) j) := by
  obtain ⟨-, -, -, -, ⟨e0, e1⟩, -, ec⟩ := where_blocks t
  have ho0 : k0_off2 (grid0.coords t) 0 = (grid0.coords t 0).val := congrFun (k0_off2_eq (grid0.coords t)) 0
  have ho1 : k0_off2 (grid0.coords t) 1 = 0 := congrFun (k0_off2_eq (grid0.coords t)) 1
  show V m c main_arg5 (((cfg0.win 4).blk t).view.emb
    ((Rect.unit (s := S8x2048) (k0_off2 (grid0.coords t)) S1x2048.size (k0_off2_inb (grid0.coords t) hc1)).emb (ix2 u j))) = V m c main_arg5 _
  refine congrArg _ (funext fun a => Fin.ext ?_)
  have hu := u.isLt
  match a with
  | ⟨0, _⟩ => show win0_4.index t (0 : Fin 2) * 8 + 1 * (k0_off2 (grid0.coords t) 0 + 1 * u.val) = t.val / 32; omega
  | ⟨1, _⟩ => show win0_4.index t (1 : Fin 2) * 2048 + 1 * (k0_off2 (grid0.coords t) 1 + 1 * j.val) = j.val; omega

end Cert.KernelIdeal.Body
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Payloads.lean ====
/-
  The arithmetic of one grid point, read entry by entry at the ideal values.

  At a grid point the body holds a 512-token block x (512 × 2048), a slab of 1024 hidden units of the first weight
  matrix (2048 × 1024) with the matching slab of the first bias (one row of 1024), and the same slab of the second weight
  matrix (1024 × 2048). It forms the 512 × 1024 hidden block x · w1 + b1, applies the activation entry by entry, and adds
  the 512 × 2048 product of the activated block with the w2 slab to the running accumulator. At entry (r, j) that
  is the accumulator plus the sum over the slab's 1024 units k of

      gelu ((∑ h, x[r, h] · w1[h, k]) + b1[k]) · w2[k, j]:

  both matrix products start from an all-zero array, so each is a plain sum of products; the casts between the 16-bit and
  32-bit formats change nothing at the ideal values; the unit axes of the staged blocks are dropped and put back by shape
  casts that keep every entry. At the last slab the second bias row is added to the accumulator, entry by entry.
-/
import proofs.«175994_j75711683494339_1_alg».proof.Proof.Gen.KernelIdeal.Skeleton
import proofs.«175994_j75711683494339_1_alg».proof.Proof.Spec
import proofs.«175994_j75711683494339_1_alg».proof.Proof.LibDotPlain
import Idealize.ShloMosaic.Lib.Pipeline.Value
import Idealize.ShloMosaic.Lib.ValueLayout

noncomputable section

open scoped BigOperators

namespace Cert.KernelIdeal.Body

open Cert.KernelIdeal Cert.KernelIdeal.Gen
open Idealize.ShloMosaic Idealize.ShloMosaic.TcCoe Idealize.ShloMosaic.ValueIdx Cert.ExpertFFN

/-! ## The hidden block and its activation -/

/-- The 512 × 1024 hidden block before the activation: the token block times the w1 slab, plus the bias row on every
    token. -/
def hiddenBlk (v3 : Vec Ideal S1x512x2048 .bf16) (v5 : Vec Ideal S1x2048x1024 .bf16) (v9 : Vec Ideal S1x1024 .f32) :
    FVec Ideal S512x1024 .f32 :=
  addf (matmul dot_S512x2048_S2048x1024_S512x1024_1_0_0_1_n_n none
      (shapeCast S512x2048 v3 shapeCasts_S1x512x2048_S512x2048 : FVec Ideal S512x2048 .bf16)
      (shapeCast S2048x1024 v5 shapeCasts_S1x2048x1024_S2048x1024 : FVec Ideal S2048x1024 .bf16)
      (constant S512x1024 .f32 0x00000000#32))
    (broadcastTo S512x1024 (shapeCast S1x1024 (shapeCast S1024 v9 shapeCasts_S1x1024_S1024 : FVec Ideal S1024 .f32)
      shapeCasts_S1024_S1x1024 : FVec Ideal S1x1024 .f32) broadcasts_S1x1024_S512x1024)

/-- Entry (r, k) of the hidden block: the r-th token against column k of the slab, plus the k-th bias. -/
theorem hiddenBlk_apply (v3 : Vec Ideal S1x512x2048 .bf16) (v5 : Vec Ideal S1x2048x1024 .bf16) (v9 : Vec Ideal S1x1024 .f32)
    (r : Fin 512) (k : Fin 1024) :
    hiddenBlk v3 v5 v9 (ix2 r k)
      = (∑ h : Fin 2048, v3 (ix3 (0 : Fin 1) r h) * v5 (ix3 (0 : Fin 1) h k)) + v9 (ix2 (0 : Fin 1) k) := by
  unfold hiddenBlk
  rw [addf_apply]
  congr 1
  · refine (Cert.LibDotPlain.matmul_zero_plain 512 2048 1024 none _ _ r k).trans ?_
    refine Finset.sum_congr rfl fun h _ => ?_
    rw [shapeCast_1ab_ab_apply, shapeCast_1ab_ab_apply]
  · rw [broadcastTo_1b_ab_apply, shapeCast_a_1a_apply, shapeCast_1a_a_apply]

/-- The activation applied to a 512 × 1024 block as the body spells it, narrowed to the 16-bit format for the second
    product. -/
def actBlk (v13 : FVec Ideal S512x1024 .f32) : FVec Ideal S512x1024 .bf16 :=
  truncf .bf16 (mulf v13 (mulf (broadcast S512x1024 (Scalar.ofBits .f32 0x3F000000#32))
    (addf (broadcast S512x1024 (Scalar.ofBits .f32 0x3F800000#32))
      (tanh (mulf (broadcast S512x1024 (Scalar.ofBits .f32 0x3F4C422A#32))
        (addf v13 (mulf (broadcast S512x1024 (Scalar.ofBits .f32 0x3D372713#32)) (mulf v13 (mulf v13 v13))))))))) bitsLt_bf16_f32

/-- Entry by entry it is the layer's GELU. -/
theorem actBlk_apply (v13 : FVec Ideal S512x1024 .f32) (i : S512x1024.Idx) : actBlk v13 i = gelu (v13 i) := rfl

/-! ## The accumulator after one slab -/

/-- The body's update of the accumulator is the accumulator plus the activated hidden block times the w2 slab. -/
theorem update_eq (v3 : Vec Ideal S1x512x2048 .bf16) (v5 : Vec Ideal S1x2048x1024 .bf16) (v9 : Vec Ideal S1x1024 .f32)
    (v28 : Vec Ideal S1x1024x2048 .bf16) (v30 : Vec Ideal S512x2048 .f32) :
    k0_pay4 (F := Ideal) v3 v5 v9 v28 v30
      = addf v30 (matmul dot_S512x1024_S1024x2048_S512x2048_1_0_0_1_n_n none (actBlk (hiddenBlk v3 v5 v9))
          (shapeCast S1024x2048 v28 shapeCasts_S1x1024x2048_S1024x2048 : FVec Ideal S1024x2048 .bf16)
          (constant S512x2048 .f32 0x00000000#32)) := rfl

/-- Entry (r, j) of the updated accumulator: the old entry plus the slab's 1024 contributions. -/
theorem update_apply (v3 : Vec Ideal S1x512x2048 .bf16) (v5 : Vec Ideal S1x2048x1024 .bf16) (v9 : Vec Ideal S1x1024 .f32)
    (v28 : Vec Ideal S1x1024x2048 .bf16) (v30 : Vec Ideal S512x2048 .f32) (r : Fin 512) (j : Fin 2048) :
    k0_pay4 (F := Ideal) v3 v5 v9 v28 v30 (ix2 r j)
      = v30 (ix2 r j) + ∑ k : Fin 1024,
          gelu ((∑ h : Fin 2048, v3 (ix3 (0 : Fin 1) r h) * v5 (ix3 (0 : Fin 1) h k)) + v9 (ix2 (0 : Fin 1) k))
            * v28 (ix3 (0 : Fin 1) k j) := by
  rw [update_eq, addf_apply]
  congr 1
  refine (Cert.LibDotPlain.matmul_zero_plain 512 1024 2048 none _ _ r j).trans ?_
  refine Finset.sum_congr rfl fun k _ => ?_
  rw [actBlk_apply, hiddenBlk_apply, shapeCast_1ab_ab_apply]

/-- The accumulator's reset value is zero at every entry. -/
theorem reset_apply (i : S512x2048.Idx) : k0_pay3 (F := Ideal) i = 0 := by
  unfold k0_pay3
  rw [shapeCast_self]
  exact Ideal.ofBits_zero_f32

/-- Storing the updated accumulator back changes nothing: the cast is to its own shape. -/
theorem store_eq (v32 : FVec Ideal S512x2048 .f32) : k0_pay1 (F := Ideal) v32 = v32 := by
  unfold k0_pay1
  exact shapeCast_self _ _

/-- The output block at the last slab: the accumulator plus the second bias row on every token, under a leading unit
    axis. -/
theorem emit_apply (v39 : Vec Ideal S512x2048 .f32) (v41 : Vec Ideal S1x2048 .f32) (u : Fin 1) (r : Fin 512) (j : Fin 2048) :
    k0_pay2 (F := Ideal) v39 v41 (ix3 u r j) = v39 (ix2 r j) + v41 (ix2 (0 : Fin 1) j) := by
  unfold k0_pay2
  rw [shapeCast_ab_1ab_apply, addf_apply, broadcastTo_1b_ab_apply, shapeCast_a_1a_apply, shapeCast_1a_a_apply]

end Cert.KernelIdeal.Body
-- ==== Proof.Accumulate.lean ====
/-
  The accumulator across a token block's eight slabs, and the block the last slab writes.

  Fix the arrays the region finds: tokens x, weights w1 and w2, biases b1 and b2. Along the eight points of one expert
  and token block the slab number runs 0, 1, …, 7. The first point resets the accumulator and adds slab 0's
  contributions; each later point adds its slab's to what the point before left. So after the point with slab number
  p the accumulator's entry (r, j) is the sum of the contributions of slabs 0, …, p to output feature j of the block's
  r-th token ("partialSum … (p + 1)"), by induction along the points: a point that is not a first slab has the same
  expert and token block as the point before it, and one more slab.

  After slab 7 that is the whole sum over the 8192 hidden units, and the block written there adds the expert's second
  bias: the layer's value at that token and feature.
-/
import proofs.«175994_j75711683494339_1_alg».proof.Proof.Blocks
import proofs.«175994_j75711683494339_1_alg».proof.Proof.Payloads

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem Cert.ExpertFFN

variable (m : (ℓ : Loc nD τ sig) → Buf (Elt Ideal) ℓ)

/-- One slab's contributions to entry (r, j), from the arrays the region finds. -/
abbrev slabSum (c : Dev nD) (t : Fin cfg0.N) (r : Fin 512) (j : Fin 2048) : EReal :=
  ∑ k : Fin 1024, termN (tokens m c) (weights1 m c) (bias1 m c) (weights2 m c) (expert t) (tokRow t r) j (t.val % 8 * 1024 + k.val)

/-- The body's update at point t adds the point's slab to whatever the accumulator held. -/
theorem step_apply (c : Dev nD) (t : Fin cfg0.N) (acc : Vec Ideal S512x2048 .f32) (r : Fin 512) (j : Fin 2048) :
    step (grid0.coords t) (tokBlk m c t) (w1Blk m c t) (b1Blk m c t) (w2Blk m c t) acc (ix2 r j)
      = acc (ix2 r j) + slabSum m c t r j := by
  unfold step
  rw [store_eq, update_apply]
  congr 1
  refine Finset.sum_congr rfl fun k _ => ?_
  rw [termN_of_lt _ _ _ _ _ _ _ (t.val % 8 * 1024 + k.val) (hidUnit t k).isLt, biasRow1_apply, w2Blk_apply]
  simp only [tokBlk_apply, w1Blk_apply]
  rfl

/-- A point that is not a first slab continues the point before it: same expert, same token block. -/
theorem expert_pred (n : ℕ) (hn : n < cfg0.N) (hn' : n - 1 < cfg0.N) (h0 : ¬n % 8 = 0) :
    expert ⟨n - 1, hn'⟩ = expert ⟨n, hn⟩ := Fin.ext (by show (n - 1) / 32 = n / 32; omega)

theorem tokRow_pred (n : ℕ) (hn : n < cfg0.N) (hn' : n - 1 < cfg0.N) (h0 : ¬n % 8 = 0) (r : Fin 512) :
    tokRow ⟨n - 1, hn'⟩ r = tokRow ⟨n, hn⟩ r := Fin.ext (by show (n - 1) / 8 % 4 * 512 + r.val = n / 8 % 4 * 512 + r.val; omega)

/-- THE ACCUMULATOR after point n: the contributions of the slabs up to the point's own. -/
theorem acc_eq (c : Dev nD) : ∀ (n : ℕ) (hn : n < cfg0.N) (r : Fin 512) (j : Fin 2048),
    (outsAt0 m c n hn).2 (ix2 r j)
      = partialSum (tokens m c) (weights1 m c) (bias1 m c) (weights2 m c) (expert ⟨n, hn⟩) (tokRow ⟨n, hn⟩ r) j (n % 8 + 1) := by
  intro n
  induction n using Nat.strong_induction_on with
  | _ n ih =>
    intro hn r j
    have hN : n < 256 := lt256 ⟨n, hn⟩
    by_cases h0 : n % 8 = 0
    · have h1 : ¬n % 8 = 7 := by omega
      rw [outsAt0_A m c ⟨n, hn⟩ h0 h1]
      dsimp only
      rw [acc_first]
      refine (step_apply m c ⟨n, hn⟩ _ r j).trans ?_
      have hz : partialSum (tokens m c) (weights1 m c) (bias1 m c) (weights2 m c) (expert ⟨n, hn⟩) (tokRow ⟨n, hn⟩ r) j (n % 8) = 0 := by
        rw [h0]; exact partialSum_zero _ _ _ _ _ _ _
      rw [reset_apply, partialSum_succ, hz]
    · have hn' : n - 1 < cfg0.N := Nat.lt_of_le_of_lt (Nat.sub_le _ _) hn
      have hprev := ih (n - 1) (by omega) hn' r j
      rw [expert_pred n hn hn' h0, tokRow_pred n hn hn' h0, show (n - 1) % 8 + 1 = n % 8 from by omega] at hprev
      have hsucc := partialSum_succ (tokens m c) (weights1 m c) (bias1 m c) (weights2 m c) (expert ⟨n, hn⟩) (tokRow ⟨n, hn⟩ r) j (n % 8)
      by_cases h1 : n % 8 = 7
      · rw [outsAt0_C m c ⟨n, hn⟩ h0 h1]
        dsimp only
        rw [acc_last]
        refine (step_apply m c ⟨n, hn⟩ _ r j).trans ?_
        rw [hsucc]
        exact congrArg (· + _) hprev
      · rw [outsAt0_B m c ⟨n, hn⟩ h0 h1]
        dsimp only
        rw [acc_middle]
        refine (step_apply m c ⟨n, hn⟩ _ r j).trans ?_
        rw [hsucc]
        exact congrArg (· + _) hprev

/-- THE BLOCK a last-slab point writes: the layer at the block's tokens. -/
theorem outBlk_apply (c : Dev nD) (t : Fin cfg0.N) (h7 : t.val % 8 = 7) (u : Fin 1) (r : Fin 512) (j : Fin 2048) :
    (outsAt0 m c t.val t.isLt).1 (ix3 u r j)
      = outAt (tokens m c) (weights1 m c) (bias1 m c) (weights2 m c) (bias2 m c) (expert t) (tokRow t r) j := by
  have h0 : ¬t.val % 8 = 0 := by omega
  have hacc := acc_eq m c t.val t.isLt r j
  rw [outsAt0_C m c t h0 h7] at hacc ⊢
  dsimp only at hacc ⊢
  rw [acc_last] at hacc
  rw [out_last]
  unfold emit
  rw [emit_apply, biasRow2_apply, hacc, h7]
  unfold outAt
  rw [partialSum_eight]

end Cert.KernelIdeal.Body
-- ==== Proof.KernelRun.lean ====
/-
  The kernel's result is the expert feed-forward layer.

  The output array [8, 2048, 2048] is written back one [1, 512, 2048] block at a time, at the last slab of each expert
  and token block; the block written at point t is rows ((t / 8) mod 4) · 512 + r of expert t / 32, and it holds the
  layer's values there. Every entry (e, R, j) of the array lies in the block of the last-slab point of expert e and
  token block R / 512, so after the run the array is the layer of the arrays the region found.

  Those are the program's arguments seen through the operations before the call: the tokens reshaped to
  [8, 2048, 2048], and narrowings to the 16-bit format that change nothing at the ideal values. The one operation after
  the call reshapes the array to [16384, 2048]. So the run ends with the result at that reshape of the layer of the
  arguments, and the arguments as they were.
-/
import proofs.«175994_j75711683494339_1_alg».proof.Proof.Accumulate
import Idealize.ShloMosaic.Lib.StableHlo.Run

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem Cert.ExpertFFN
open Idealize.ShloMosaic.Pipeline (Dat)

variable (m : (ℓ : Loc nD τ sig) → Buf (Elt Ideal) ℓ) (ρ : Dev nD → PrngReg)

/-- The layer of the arrays the region finds, as contents of the call's output array. -/
abbrev layer (c : Dev nD) : Buf (Elt Ideal) ((c : Thread nD τ).loc main_v4) :=
  out (tokens m c) (weights1 m c) (bias1 m c) (weights2 m c) (bias2 m c)

/-! ## What a last-slab point writes back -/

theorem flushed_eq (c : Dev nD) (t : Fin cfg0.N) (hf : (cfg0.win 5).flush t = true) :
    (dats m 0 c).flushed 5 t = ((cfg0.win 5).blk t).view.read (Elt Ideal) (layer m c) := by
  have h7 : t.val % 8 = 7 := (flush0_5 t).mp hf
  obtain ⟨-, -, -, -, -, ⟨e0, e1, e2⟩, -⟩ := where_blocks t
  show (cfg0.win 5).cut (grid0.coords t) ((dats m 0 c).after 5 t) = _
  rw [after0_5]
  funext y
  obtain ⟨u, r, j, rfl⟩ : ∃ (u : Fin 1) (r : Fin 512) (j : Fin 2048), y = ix3 u r j := ⟨y 0, y 1, y 2, eq_ix3 y⟩
  show (outsAt0 m c t.val t.isLt).1 (ix3 u r j) = layer m c (((cfg0.win 5).blk t).view.emb (ix3 u r j))
  have he : ((cfg0.win 5).blk t).view.emb (ix3 u r j) = ix3 (expert t) (tokRow t r) j := funext fun a => Fin.ext (by
    have hu := u.isLt
    match a with
    | ⟨0, _⟩ => show win0_5.index t (0 : Fin 3) * 1 + 1 * u.val = t.val / 32; omega
    | ⟨1, _⟩ => show win0_5.index t (1 : Fin 3) * 512 + 1 * r.val = t.val / 8 % 4 * 512 + r.val; omega
    | ⟨2, _⟩ => show win0_5.index t (2 : Fin 3) * 2048 + 1 * j.val = j.val; omega)
  rw [he, outBlk_apply m c t h7]
  rfl

/-! ## The written blocks fill the array -/

theorem mem_outBlk (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4).slice (win0_5.rect t)).set ↔ _
  rw [View.set_slice_whole, Rect.mem_set_unit]
  exact Iff.rfl

theorem covered (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  have hlt : (i 0).val * 32 + (i 1).val / 512 * 8 + 7 < cfg0.N :=
    lt_of_lt_of_eq (by omega : (i 0).val * 32 + (i 1).val / 512 * 8 + 7 < 256) (show (256 : ℕ) = cfg0.N from N_0.symm)
  obtain ⟨-, -, -, -, -, ⟨e0, e1, e2⟩, -⟩ := where_blocks ⟨(i 0).val * 32 + (i 1).val / 512 * 8 + 7, hlt⟩
  refine ⟨⟨(i 0).val * 32 + (i 1).val / 512 * 8 + 7, hlt⟩, (flush0_5 _).mpr (by show ((i 0).val * 32 + (i 1).val / 512 * 8 + 7) % 8 = 7; omega), ?_⟩
  rw [mem_outBlk]
  dsimp only at e0 e1 e2
  intro a
  match a with
  | ⟨0, _⟩ =>
    show win0_5.index ⟨(i 0).val * 32 + (i 1).val / 512 * 8 + 7, hlt⟩ (0 : Fin 3) * 1 ≤ (i 0).val
      ∧ (i 0).val < win0_5.index ⟨(i 0).val * 32 + (i 1).val / 512 * 8 + 7, hlt⟩ (0 : Fin 3) * 1 + 1
    omega
  | ⟨1, _⟩ =>
    show win0_5.index ⟨(i 0).val * 32 + (i 1).val / 512 * 8 + 7, hlt⟩ (1 : Fin 3) * 512 ≤ (i 1).val
      ∧ (i 1).val < win0_5.index ⟨(i 0).val * 32 + (i 1).val / 512 * 8 + 7, hlt⟩ (1 : Fin 3) * 512 + 512
    omega
  | ⟨2, _⟩ =>
    show win0_5.index ⟨(i 0).val * 32 + (i 1).val / 512 * 8 + 7, hlt⟩ (2 : Fin 3) * 2048 ≤ (i 2).val
      ∧ (i 2).val < win0_5.index ⟨(i 0).val * 32 + (i 1).val / 512 * 8 + 7, hlt⟩ (2 : Fin 3) * 2048 + 2048
    omega

/-- The output array after the run is the layer. -/
theorem outArray_eq (c : Dev nD) : (dats m 0 c).arrAt 5 cfg0.N = layer m c :=
  (dats m 0 c).arrAt_eq_of_cover 5 (layer m c) (flushed_eq m c) covered

/-! ## The arrays the region finds, from the arguments -/

theorem tokens_eq (c : Dev nD) : (tokens m c : S8x2048x2048.Idx → EReal)
    = shapeCast S8x2048x2048 (m ((c : Thread nD τ).loc main_arg0)) shapeCasts_S16384x2048_S8x2048x2048 := by
  show StableHlo.after hostOps0 (fun b => m (c, b)) (Proc.devRef .tc main_v1) = _
  after_results
  rfl

theorem weights1_eq (c : Dev nD) : (weights1 m c : S8x2048x8192.Idx → EReal) = m ((c : Thread nD τ).loc main_arg2) := by
  show StableHlo.after hostOps0 (fun b => m (c, b)) (Proc.devRef .tc main_v2) = _
  after_results
  rfl

theorem weights2_eq (c : Dev nD) : (weights2 m c : S8x8192x2048.Idx → EReal) = m ((c : Thread nD τ).loc main_arg4) := by
  show StableHlo.after hostOps0 (fun b => m (c, b)) (Proc.devRef .tc main_v3) = _
  after_results
  rfl

/-! ## The result -/

/-- The layer of the arguments, reshaped to [16384, 2048]. -/
abbrev result (c : Dev nD) : Buf (Elt Ideal) ((c : Thread nD τ).loc main_v5) :=
  shapeCast S16384x2048
    (out (shapeCast S8x2048x2048 (m ((c : Thread nD τ).loc main_arg0)) shapeCasts_S16384x2048_S8x2048x2048)
      (m ((c : Thread nD τ).loc main_arg2)) (m ((c : Thread nD τ).loc main_arg3)) (m ((c : Thread nD τ).loc main_arg4))
      (m ((c : Thread nD τ).loc main_arg5)))
    shapeCasts_S8x2048x2048_S16384x2048

theorem layer_eq (c : Dev nD) : (layer m c : S8x2048x2048.Idx → EReal)
    = out (shapeCast S8x2048x2048 (m ((c : Thread nD τ).loc main_arg0)) shapeCasts_S16384x2048_S8x2048x2048)
      (m ((c : Thread nD τ).loc main_arg2)) (m ((c : Thread nD τ).loc main_arg3)) (m ((c : Thread nD τ).loc main_arg4))
      (m ((c : Thread nD τ).loc main_arg5)) := by
  show out (tokens m c) (weights1 m c) (bias1 m c) (weights2 m c) (bias2 m c) = _
  rw [tokens_eq, weights1_eq, weights2_eq]
  show out _ _ (V m c main_arg3) _ (V m c main_arg5) = _
  rw [V_main_arg3, V_main_arg5]

/-- What the reshape after the call leaves in the result. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v4)
      = layer m c :=
    (Pipeline.withArrays_arr spec0 launch0.win.arr_inj c _ _ 5).trans (outArray_eq m c)
  funext i
  show shapeCast S16384x2048 (Pipeline.withArrays (cfgs 0).spec c (V0 m c) (fun w => (dats m 0 c).arrAt w (cfgs 0).N)
    (Proc.tc.devRef main_v4)) shapeCasts_S8x2048x2048_S16384x2048 i = _
  rw [hw, layer_eq]

/-- THE RUN: every weakly fair execution terminates with the result at the reshaped layer of the arguments and the
    arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.Body
-- ==== Proof.lean ====
/-
  The grouped expert feed-forward kernel against its two-einsum reference, over the extended reals.

  Both programs compute, for each of 8 experts e, each of the expert's 2048 tokens r and each of 2048 output features j,

      out[e, r, j] = (∑ f < 8192, gelu ((∑ h < 2048, x[e, r, h] · w1[e, h, f]) + b1[e, f]) · w2[e, f, j]) + b2[e, j]

  with x the [16384, 2048] token array read as [8, 2048, 2048], and hand the result back as [16384, 2048]
  (Proof/Spec.lean states it; gelu is the tanh form with the same four binary32 constants on both sides).

  The reference does it with two batched einsums (Proof/Reference.lean reads it operation by operation). The kernel
  walks a grid of 8 experts × 4 token blocks of 512 × 8 slabs of 1024 hidden units; at each point it forms the slab's
  hidden block, applies gelu, and adds the slab's product with w2 to an accumulator that it resets at slab 0 and
  writes out, plus b2, at slab 7 (Proof/Payloads.lean, Proof/Pieces.lean: one point's arithmetic; Proof/Blocks.lean:
  where each staged block sits in its array; Proof/Accumulate.lean: the accumulator after each slab, by induction along
  the points; Proof/KernelRun.lean: the written blocks fill the output array, and the run). Summing the 8192 hidden units
  1024 at a time is the same sum, because addition of extended reals is commutative and associative; the narrowings to
  the 16-bit format are the identity at the ideal values; a product into an all-zero array is a plain sum of products.
  No law that needs finite values is used, so the precondition is never opened.

  The idealization rewrote nothing, so the kernel is its own idealization. The two kernels' frames are the generated ones,
  the reference's frame is its generated run with the result dropped.
-/
import proofs.«175994_j75711683494339_1_alg».proof.Defs
import proofs.«175994_j75711683494339_1_alg».proof.Proof.Gen.Kernel
import proofs.«175994_j75711683494339_1_alg».proof.Proof.Gen.Kernel.Frame
import proofs.«175994_j75711683494339_1_alg».proof.Proof.Gen.KernelIdeal
import proofs.«175994_j75711683494339_1_alg».proof.Proof.Gen.KernelIdeal.Frame
import proofs.«175994_j75711683494339_1_alg».proof.Proof.Gen.ReferenceIdeal
import proofs.«175994_j75711683494339_1_alg».proof.Proof.Gen.ReferenceIdeal.Run
import proofs.«175994_j75711683494339_1_alg».proof.Proof.Gen.ReferenceIdeal.Read
import proofs.«175994_j75711683494339_1_alg».proof.Proof.Gen.Pre_finite_inputs
import proofs.«175994_j75711683494339_1_alg».proof.Proof.Reference
import proofs.«175994_j75711683494339_1_alg».proof.Proof.KernelRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the reshaped layer of its arguments and the
    reference's at the reshaped layer of its own: the same array. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Layer.result_eq, (hagree c).1, (hagree c).2.2.1,
    (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
